-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg5 : FVec F S256 .f32) (main_arg6 : FVec F S256x1 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S16384x128 .f32) (main_arg1 : IVec S16384 32) (main_arg2 : FVec F S128x512 .f32) (main_arg3 : FVec F S512 .f32) (main_arg4 : FVec F S512x256 .f32) (main_arg5 : FVec F S256 .f32) (main_arg6 : FVec F S256x1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_v13 main_v16
-- ==== Kernel.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S16x1x1024 : Shape := ⟨3, ![16, 1, 1024]⟩
abbrev S1x512 : Shape := ⟨2, ![1, 512]⟩
abbrev S1x256 : Shape := ⟨2, ![1, 256]⟩
abbrev S1x16 : Shape := ⟨2, ![1, 16]⟩
abbrev S1024x128 : Shape := ⟨2, ![1024, 128]⟩
abbrev S1x1x1024 : Shape := ⟨3, ![1, 1, 1024]⟩
abbrev S512x1 : Shape := ⟨2, ![512, 1]⟩
abbrev S1 : Shape := ⟨1, ![1]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1024x16 : Shape := ⟨2, ![1024, 16]⟩
abbrev S16 : Shape := ⟨1, ![16]⟩

abbrev nBuf : Space → Nat
  | .hbm => 12
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S16x1x1024, .i32⟩
  | .hbm, ⟨8, _⟩ => ⟨S1x512, .f32⟩
  | .hbm, ⟨9, _⟩ => ⟨S1x256, .f32⟩
  | .hbm, ⟨10, _⟩ => ⟨S1x16, .f32⟩
  | .hbm, ⟨11, _⟩ => ⟨S16, .f32⟩
  | .local _ .vmem, ⟨0, _⟩ => ⟨S1024x128, .f32⟩
  | .local _ .vmem, ⟨1, _⟩ => ⟨S1024x128, .f32⟩
  | .local _ .vmem, ⟨2, _⟩ => ⟨S1x1x1024, .i32⟩
  | .local _ .vmem, ⟨3, _⟩ => ⟨S1x1x1024, .i32⟩
  | .local _ .vmem, ⟨4, _⟩ => ⟨S128x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S256x1, .f32⟩
  | .local _ .vmem, ⟨9, _⟩ => ⟨S1x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S16384_S16x1x1024 : S16384.ShapeCasts S16x1x1024
  shapeCasts_S512_S1x512 : S512.ShapeCasts S1x512
  shapeCasts_S256_S1x256 : S256.ShapeCasts S1x256
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  inb_S1x256_S1x256_0_0 : ∀ a, (![0, 0] : Fin 2 → Nat) a + S1x256.size a ≤ S1x256.size a
  h_S1x256 : 0 < S1x256.numel
  shapeCasts_S1x256_S256 : S1x256.ShapeCasts S256
  shapeCasts_S256x1_S256 : S256x1.ShapeCasts S256
  reduces_S1x256_S1 : S1x256.Reduces [1] S1
  shapeCasts_S1_S1x1 : S1.ShapeCasts S1x1
  inpos_S1x1_p0_0 : ∀ a, (![0, 0] : Fin 2 → Nat) a < S1x1.size a
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S512 : S1x512.ShapeCasts S512
  broadcasts_S1x512_S1024x512 : S1x512.Broadcasts S1024x512
  shapeCasts_S512x1_S512 : S512x1.ShapeCasts S512
  reduces_S1024x512_S1024 : S1024x512.Reduces [1] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  iota_S1x16_d1_w32 : S1x16.Iotas .tc 32 [1]
  shapeCasts_S1024_S1024x1 : S1024.ShapeCasts S1024x1
  broadcasts_S1024x1_S1024x16 : S1024x1.Broadcasts S1024x16
  broadcasts_S1x16_S1024x16 : S1x16.Broadcasts S1024x16
  shapeCasts_S1024x1_S1024x1 : S1024x1.ShapeCasts S1024x1
  reduces_S1024x16_S16 : S1024x16.Reduces [0] S16
  inb_S1x16_S1x16_0_0 : ∀ a, (![0, 0] : Fin 2 → Nat) a + S1x16.size a ≤ S1x16.size a
  h_S1x16 : 0 < S1x16.numel
  shapeCasts_S1x16_S16 : S1x16.ShapeCasts S16
  shapeCasts_S16_S1x16 : S16.ShapeCasts S1x16
  dot_S512x256_S256x1_S512x1_1_0_0_1_n_n_wf : DotDims.WF S512x256 S256x1 S512x1 [1] [0] [0] [1] [] []
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .i32 = 32 ∨ (Rect.block (s := S16x1x1024) S1x1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)

variable [Facts₀]

def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x16.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x1 : Shape := ⟨2, ![16384, 1]⟩
abbrev S16 : Shape := ⟨1, ![16]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x1, .f32⟩
  | .hbm, ⟨7, _⟩ => ⟨S16384x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x256, .f32⟩
  | .hbm, ⟨15, _⟩ => ⟨S1x256, .f32⟩
  | .hbm, ⟨16, _⟩ => ⟨S16384x256, .f32⟩
  | .hbm, ⟨17, _⟩ => ⟨S16384x256, .f32⟩
  | .hbm, ⟨18, _⟩ => ⟨S16384x1, .f32⟩
  | .hbm, ⟨19, _⟩ => ⟨S16384, .f32⟩
  | .hbm, ⟨20, _⟩ => ⟨S_, .f32⟩
  | .hbm, ⟨21, _⟩ => ⟨S16, .f32⟩
  | .hbm, ⟨22, _⟩ => ⟨S16384x1, .i32⟩
  | .hbm, ⟨23, _⟩ => ⟨S16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  shapeCasts_S16384x1_S16384 : S16384x1.ShapeCasts S16384
  bcast_S_S16 : S_.BroadcastsInDim S16 (![] : Fin 0 → Fin S16.rank)
  bcast_S16384_S16384x1_0 : S16384.BroadcastsInDim S16384x1 (![0] : Fin 1 → Fin S16384x1.rank)
  dot_S16384x128_S128x512_S16384x512_1_0_0_1_n_n_wf : DotDims.WF S16384x128 S128x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []
  scatter_S16_S16384x1_S16384_n_0_0_1_wf : ScatterDims.WF S16 S16384x1 S16384 [] [0] [0] 1

variable [Facts₀]

def dot_S16384x128_S128x512_S16384x512_1_0_0_1_n_n : DotDims S16384x128 S128x512 S16384x512 where
  lhsContracting := [1]
  rhsContracting := [0]
  lhsNonContracting := [0]
  rhsNonContracting := [1]
  lhsBatch := []
  rhsBatch := []
  wf := dot_S16384x128_S128x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def scatter_S16_S16384x1_S16384_n_0_0_1 : ScatterDims S16 S16384x1 S16384 where
  updateWindowDims := []
  insertedWindowDims := [0]
  scatterDimsToOperandDims := [0]
  indexVectorDim := 1
  wf := scatter_S16_S16384x1_S16384_n_0_0_1_wf

class Facts : Prop extends Facts₀ where

variable [Facts]
-- ==== Proof.KernelBody.lean ====
/-
  The kernel body's arithmetic, read one element at a time over the extended reals.

  The body forms, per token of the block, the hidden row, multiplies it by the head carried through the second
  layer, sums, and adds the bias term; it compares each token's segment id with the sixteen segment numbers; and it
  adds, per segment, the values of the block's tokens carrying that id to what the output held before.
-/
import proofs.«133156_g27273042329868_cont_9to1_1261_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ## The two matrix products at an element -/

theorem lhs_head_0 (i : S512x1.Idx) (q : dot_S512x256_S256x1_S512x1_1_0_0_1_n_n.contr.Idx) :
    (dot_S512x256_S256x1_S512x1_1_0_0_1_n_n.lhsIdx i q 0).val = (i 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
theorem lhs_head_1 (i : S512x1.Idx) (q : dot_S512x256_S256x1_S512x1_1_0_0_1_n_n.contr.Idx) :
    (dot_S512x256_S256x1_S512x1_1_0_0_1_n_n.lhsIdx i q 1).val = (q ⟨0, by decide⟩).val :=
  dot_S512x256_S256x1_S512x1_1_0_0_1_n_n.lhsIdx_val_of_single rfl i q
theorem rhs_head_0 (i : S512x1.Idx) (q : dot_S512x256_S256x1_S512x1_1_0_0_1_n_n.contr.Idx) :
    (dot_S512x256_S256x1_S512x1_1_0_0_1_n_n.rhsIdx i q 0).val = (q ⟨0, by decide⟩).val :=
  dot_S512x256_S256x1_S512x1_1_0_0_1_n_n.rhsIdx_val_of_single rfl i q
theorem rhs_head_1 (i : S512x1.Idx) (q : dot_S512x256_S256x1_S512x1_1_0_0_1_n_n.contr.Idx) :
    (dot_S512x256_S256x1_S512x1_1_0_0_1_n_n.rhsIdx i q 1).val = (i 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl

/-- The head carried through the second layer: row `j` of the second layer's matrix against the head's column. -/
theorem head_apply (W2 : FVec Ideal S512x256 .f32) (w : FVec Ideal S256x1 .f32) (j : Fin 512) (u : Fin 1) :
    matmul (F := Ideal) dot_S512x256_S256x1_S512x1_1_0_0_1_n_n none W2 w (constant S512x1 .f32 0x00000000#32) (ix2 j u)
      = ∑ k : Fin 256, W2 (ix2 j k) * w (ix2 k 0) := by
  simp only [matmul]
  rw [Ideal.matmul_constant_zero_apply, ← Equiv.sum_comp (ValueIdx.contrEquiv1 dot_S512x256_S256x1_S512x1_1_0_0_1_n_n 256 rfl rfl).symm]
  refine Finset.sum_congr rfl fun k _ => ?_
  have hk := ValueIdx.contrEquiv1_symm_val dot_S512x256_S256x1_S512x1_1_0_0_1_n_n 256 rfl rfl k
  have hu : u.val = 0 := by omega
  have el : dot_S512x256_S256x1_S512x1_1_0_0_1_n_n.lhsIdx (ix2 j u) ((ValueIdx.contrEquiv1 dot_S512x256_S256x1_S512x1_1_0_0_1_n_n 256 rfl rfl).symm k) = ix2 j k := funext fun a => Fin.ext (by
    match a with
    | ⟨0, _⟩ => exact lhs_head_0 _ _
    | ⟨1, _⟩ => exact (lhs_head_1 _ _).trans hk)
  have er : dot_S512x256_S256x1_S512x1_1_0_0_1_n_n.rhsIdx (ix2 j u) ((ValueIdx.contrEquiv1 dot_S512x256_S256x1_S512x1_1_0_0_1_n_n 256 rfl rfl).symm k) = ix2 k 0 := funext fun a => Fin.ext (by
    match a with
    | ⟨0, _⟩ => exact (rhs_head_0 _ _).trans hk
    | ⟨1, _⟩ => exact (rhs_head_1 _ _).trans hu)
  rw [el, er]

theorem lhs_first_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_first_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_first_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_first_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The first layer's product: the token's row against column `j` of the first layer's matrix. -/
theorem first_apply (x : FVec Ideal S1024x128 .f32) (W1 : FVec Ideal S128x512 .f32) (r : Fin 1024) (j : Fin 512) :
    matmul (F := Ideal) dot_S1024x128_S128x512_S1024x512_1_0_0_1_n_n none x W1 (constant S1024x512 .f32 0x00000000#32) (ix2 r j)
      = ∑ a : Fin 128, x (ix2 r a) * W1 (ix2 a j) := by
  simp only [matmul]
  rw [Ideal.matmul_constant_zero_apply, ← Equiv.sum_comp (ValueIdx.contrEquiv1 dot_S1024x128_S128x512_S1024x512_1_0_0_1_n_n 128 rfl rfl).symm]
  refine Finset.sum_congr rfl fun k _ => ?_
  have hk := ValueIdx.contrEquiv1_symm_val dot_S1024x128_S128x512_S1024x512_1_0_0_1_n_n 128 rfl rfl k
  have el : dot_S1024x128_S128x512_S1024x512_1_0_0_1_n_n.lhsIdx (ix2 r j) ((ValueIdx.contrEquiv1 dot_S1024x128_S128x512_S1024x512_1_0_0_1_n_n 128 rfl rfl).symm k) = ix2 r k := funext fun a => Fin.ext (by
    match a with
    | ⟨0, _⟩ => exact lhs_first_0 _ _
    | ⟨1, _⟩ => exact (lhs_first_1 _ _).trans hk)
  have er : dot_S1024x128_S128x512_S1024x512_1_0_0_1_n_n.rhsIdx (ix2 r j) ((ValueIdx.contrEquiv1 dot_S1024x128_S128x512_S1024x512_1_0_0_1_n_n 128 rfl rfl).symm k) = ix2 k j := funext fun a => Fin.ext (by
    match a with
    | ⟨0, _⟩ => exact (rhs_first_0 _ _).trans hk
    | ⟨1, _⟩ => exact rhs_first_1 _ _)
  rw [el, er]

/-! ## A sum along one axis, with the accumulator's word spelt as the body prints it -/

/-- A sum along one axis from the zero word is the finite sum over that axis's coordinates. -/
theorem lane_sum {s t : Shape} {a : Fin s.rank} (src : FVec Ideal s .f32) (h : s.Reduces [a] t) (hφ : FKind.Formats .f32)
    (hacc : (0x00000000#32 : BitVec 32) = 0x00000000#32) (j : t.Idx) :
    multiReduction (F := Ideal) .add [a] t src 0x00000000#32 h hφ hacc j = ∑ k : Fin (s.size a), src (h.lift j k) :=
  Ideal.multiReduction_add_single src 0x00000000#32 h hφ hacc j

/-! ## The body's three values -/

/-- The value of token `r` of the block: the hidden row against the head carried through the second layer, plus the
    bias term. The weight column is loaded twice by the body; both loads are kept apart here. -/
theorem token_apply (W2 : Vec Ideal S512x256 .f32) (w : Vec Ideal S256x1 .f32) (b2 : Vec Ideal S1x256 .f32)
    (w' : Vec Ideal S256x1 .f32) (x : Vec Ideal S1024x128 .f32) (W1 : Vec Ideal S128x512 .f32) (b1 : Vec Ideal S1x512 .f32)
    (r : Fin 1024) (u : Fin 1) :
    k0_pay4 (F := Ideal) W2 w b2 w' x W1 b1 (ix2 r u)
      = (∑ j : Fin 512, max ((∑ a : Fin 128, x (ix2 r a) * W1 (ix2 a j)) + b1 (ix2 0 j)) 0
            * ∑ k : Fin 256, W2 (ix2 j k) * w (ix2 k 0))
        + ∑ k : Fin 256, b2 (ix2 0 k) * w' (ix2 k 0) := by
  have hu : u.val = 0 := by omega
  unfold k0_pay4
  dsimp only
  rw [shapeCast_apply _ _ (ix2 r u) (ix1 r)
    (by rw [Shape.rowMajor_val_two, Shape.rowMajor_val_one]; show r.val = r.val * 1 + u.val; omega)]
  rw [addf_apply, broadcast_apply, lane_sum]
  congr 1
  · show (∑ j : Fin 512, _) = _
    refine Finset.sum_congr rfl fun j _ => ?_
    have hl : Gen.reduces_S1024x512_S1024.lift (ix1 r) j = ix2 r j :=
      funext fun a => Fin.ext (by match a with | ⟨0, _⟩ => rfl | ⟨1, _⟩ => rfl)
    rw [hl, mulf_apply, maximumf_apply, addf_apply, first_apply, broadcast_apply,
      broadcastTo_1b_ab_apply, broadcastTo_1b_ab_apply, shapeCast_shapeCast, shapeCast_a_1a_apply,
      shapeCast_apply _ Gen.shapeCasts_S512x1_S512 (ix1 j) (ix2 j (0 : Fin 1))
        (by rw [Shape.rowMajor_val_two, Shape.rowMajor_val_one]; show j.val * 1 + 0 = j.val; omega),
      head_apply]
    show max (_ + b1 (ix2 0 j)) (Ideal.ofBits .f32 0x00000000#32) * _ = _
    rw [Ideal.ofBits_zero_f32]
  · unfold extractAt
    rw [shapeCast_apply _ Gen.shapeCasts_S1_S1x1 _ (ix1 (0 : Fin 1))
      (by rw [Shape.rowMajor_val_two, Shape.rowMajor_val_one]; rfl), lane_sum]
    show (∑ k : Fin 256, _) = _
    refine Finset.sum_congr rfl fun k _ => ?_
    have hl : Gen.reduces_S1x256_S1.lift (ix1 (0 : Fin 1)) k = ix2 (0 : Fin 1) k :=
      funext fun a => Fin.ext (by match a with | ⟨0, _⟩ => rfl | ⟨1, _⟩ => rfl)
    rw [hl, shapeCast_a_1a_apply, mulf_apply, shapeCast_1a_a_apply,
      shapeCast_apply _ Gen.shapeCasts_S256x1_S256 (ix1 k) (ix2 k (0 : Fin 1))
        (by rw [Shape.rowMajor_val_two, Shape.rowMajor_val_one]; show k.val * 1 + 0 = k.val; omega)]

/-- Whether token `r` of the block carries segment number `b`: its id compared with the word `b`. -/
theorem mask_apply (seg : Vec Ideal S1x1x1024 .i32) (r : Fin 1024) (b : Fin 16) :
    k0_pay3 (F := Ideal) seg (ix2 r b) = IntOp.cmpi .eq (seg (ix3 (0 : Fin 1) (0 : Fin 1) r)) (BitVec.ofNat 32 b.val) := by
  unfold k0_pay3
  dsimp only
  show IntOp.cmpi .eq (broadcastTo S1024x16 _ _ (ix2 r b)) (broadcastTo S1024x16 _ _ (ix2 r b)) = _
  rw [broadcastTo_1b_ab_apply, iota_single_apply,
    broadcastTo_apply _ Gen.broadcasts_S1024x1_S1024x16 (ix2 r b) (ix2 r (0 : Fin 1)) (fun a => by
      match a with
      | ⟨0, _⟩ => show r.val = if (1024 : Nat) = 1 then 0 else r.val; rw [if_neg (by decide)]
      | ⟨1, _⟩ => show 0 = if (1 : Nat) = 1 then 0 else b.val; rw [if_pos rfl]),
    shapeCast_apply _ Gen.shapeCasts_S1024_S1024x1 (ix2 r (0 : Fin 1)) (ix1 r)
      (by rw [Shape.rowMajor_val_two, Shape.rowMajor_val_one]; show r.val = r.val * 1 + 0; omega),
    shapeCast_apply _ Gen.shapeCasts_S1x1x1024_S1024 (ix1 r) (ix3 (0 : Fin 1) (0 : Fin 1) r)
      (by rw [Shape.rowMajor_val_three, Shape.rowMajor_val_one]; show (0 * 1 + 0) * 1024 + r.val = r.val; omega)]

/-- A comparison for equality selects between two values as the equality itself does. -/
theorem select_cmpi_eq {α : Type} (s v : BitVec 32) (p q : α) :
    Scalar.select (IntOp.cmpi .eq s v) p q = if s = v then p else q := by
  unfold Scalar.select IntOp.cmpi
  by_cases h : s = v
  · subst h; simp
  · have hb : (s == v) = false := by simpa using h
    simp [hb, h]

/-- The accumulate step at segment `b`: what the output held, plus the values of the block's tokens whose mask bit
    for `b` is set. -/
theorem accumulate_apply (mask : IVec S1024x16 1) (tok : FVec Ideal S1024x1 .f32) (prev : Vec Ideal S1x16 .f32)
    (u : Fin 1) (b : Fin 16) :
    k0_pay2 (F := Ideal) mask tok prev (ix2 u b)
      = prev (ix2 (0 : Fin 1) b) + ∑ r : Fin 1024, Scalar.select (mask (ix2 r b)) (tok (ix2 r (0 : Fin 1))) 0 := by
  unfold k0_pay2
  dsimp only
  rw [shapeCast_a_1a_apply, addf_apply, shapeCast_1a_a_apply, lane_sum]
  congr 1
  show (∑ r : Fin 1024, _) = _
  refine Finset.sum_congr rfl fun r _ => ?_
  have hl : Gen.reduces_S1024x16_S16.lift (ix1 b) r = ix2 r b :=
    funext fun a => Fin.ext (by match a with | ⟨0, _⟩ => rfl | ⟨1, _⟩ => rfl)
  rw [hl, select_apply, broadcast_apply, shapeCast_self,
    broadcastTo_apply _ Gen.broadcasts_S1024x1_S1024x16 (ix2 r b) (ix2 r (0 : Fin 1)) (fun a => by
      match a with
      | ⟨0, _⟩ => show r.val = if (1024 : Nat) = 1 then 0 else r.val; rw [if_neg (by decide)]
      | ⟨1, _⟩ => show 0 = if (1 : Nat) = 1 then 0 else b.val; rw [if_pos rfl])]
  show Scalar.select _ _ (Ideal.ofBits .f32 0x00000000#32) = _
  rw [Ideal.ofBits_zero_f32]

/-- The reset stores zero everywhere. -/
theorem reset_apply (y : S1x16.Idx) : k0_pay1 (F := Ideal) y = 0 := by
  unfold k0_pay1
  show Ideal.ofBits .f32 0x00000000#32 = 0
  exact Ideal.ofBits_zero_f32

end Cert.KernelIdeal.Body

end
-- ==== Proof.Spec.lean ====
/-
  The mathematics shared by the two programs, free of either program's text.

  Per token `t` both compute a hidden row `h t j = max (∑ a, x t a * W1 a j + b1 j) 0` and reduce it to one number:
  the layered form `∑ k, ((∑ j, h t j * W2 j k) + b2 k) * w k` and the folded form
  `(∑ j, h t j * ∑ k, W2 j k * w k) + ∑ k, b2 k * w k`. Over finite values these agree: multiplication distributes
  over the inner sum and the two sums exchange. Then segment `b` receives the sum of the tokens whose segment id is
  `b`; the 16384 tokens are summed either at once or as 16 consecutive blocks of 1024.
-/
import Mathlib.Data.EReal.Basic
import Mathlib.Algebra.BigOperators.Fin
import Mathlib.Algebra.BigOperators.Ring.Finset
import Mathlib.Tactic.Ring
import Mathlib.Tactic.NormNum

noncomputable section

namespace Cert.SegReward

open Finset

/-- The real coercion commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hidden unit: an affine form of the token's row, cut off below at zero. -/
def hidden {A : Type*} [Fintype A] (xrow : A → EReal) (W1col : A → EReal) (b1 : EReal) : EReal :=
  max ((∑ a, xrow a * W1col a) + b1) 0

/-- Over finite values the hidden unit is a finite value. -/
theorem hidden_coe {A : Type*} [Fintype A] (xrow W1col : A → ℝ) (b1 : ℝ) :
    hidden (fun a => (xrow a : EReal)) (fun a => (W1col a : EReal)) (b1 : EReal)
      = ((max ((∑ a, xrow a * W1col a) + b1) 0 : ℝ) : EReal) := by
  unfold hidden
  simp only [← EReal.coe_mul, ← coe_sum, ← EReal.coe_add]
  rw [EReal.coe_strictMono.monotone.map_max, EReal.coe_zero]

/-- The layered form of a token's value: through the second layer, then the head. -/
def layered {J K : Type*} [Fintype J] [Fintype K] (h : J → EReal) (W2 : J → K → EReal) (b2 w : K → EReal) : EReal :=
  ∑ k, ((∑ j, h j * W2 j k) + b2 k) * w k

/-- The folded form: the head carried through the second layer first. -/
def folded {J K : Type*} [Fintype J] [Fintype K] (h : J → EReal) (W2 : J → K → EReal) (b2 w : K → EReal) : EReal :=
  (∑ j, h j * ∑ k, W2 j k * w k) + ∑ k, b2 k * w k

/-- Over finite values the two forms agree: distribute the head's weight over the inner sum and exchange the sums. -/
theorem layered_eq_folded {J K : Type*} [Fintype J] [Fintype K] (h : J → ℝ) (W2 : J → K → ℝ) (b2 w : K → ℝ) :
    layered (fun j => (h j : EReal)) (fun j k => (W2 j k : EReal)) (fun k => (b2 k : EReal)) (fun k => (w k : EReal))
      = folded (fun j => (h j : EReal)) (fun j k => (W2 j k : EReal)) (fun k => (b2 k : EReal)) (fun k => (w k : EReal)) := by
  unfold layered folded
  simp only [← EReal.coe_mul, ← coe_sum, ← EReal.coe_add]
  congr 1
  simp only [add_mul, Finset.sum_add_distrib, Finset.sum_mul, Finset.mul_sum]
  congr 1
  rw [Finset.sum_comm]
  exact Finset.sum_congr rfl fun j _ => Finset.sum_congr rfl fun k _ => by ring

/-- Tokens `1024 * i + r`: block `i`, position `r`. -/
def tokenOf (i : Fin 16) (r : Fin 1024) : Fin 16384 := ⟨1024 * i.val + r.val, by omega⟩

/-- Block and position of a token, as an equivalence. -/
def blockEquiv : Fin 16 × Fin 1024 ≃ Fin 16384 where
  toFun p := tokenOf p.1 p.2
  invFun t := (⟨t.val / 1024, by omega⟩, ⟨t.val % 1024, by omega⟩)
  left_inv p := by
    obtain ⟨i, r⟩ := p
    apply Prod.ext <;> apply Fin.ext <;> simp only [tokenOf] <;> omega
  right_inv t := by apply Fin.ext; simp only [tokenOf]; omega

/-- A sum over all tokens is the sum over the blocks of the sums over each block's positions. -/
theorem sum_tokens_eq_sum_blocks {M : Type*} [AddCommMonoid M] (f : Fin 16384 → M) :
    ∑ t, f t = ∑ i : Fin 16, ∑ r : Fin 1024, f (tokenOf i r) := by
  rw [← Fintype.sum_prod_type' (f := fun i r => f (tokenOf i r))]
  exact (Fintype.sum_equiv blockEquiv _ _ fun _ => rfl).symm

/-- The sum received by segment `b`: the tokens whose id is the word `b`. -/
def segSum (seg : Fin 16384 → BitVec 32) (p : Fin 16384 → EReal) (b : Fin 16) : EReal :=
  ∑ t, if seg t = BitVec.ofNat 32 b.val then p t else 0

/-- A 32-bit word read as a signed number is `b < 16` exactly when it is the word `b`. -/
theorem toInt_eq_iff (x : BitVec 32) (b : Fin 16) : x.toInt = (b.val : Int) ↔ x = BitVec.ofNat 32 b.val := by
  have hb : (BitVec.ofNat 32 b.val).toInt = (b.val : Int) := by
    revert b; decide
  constructor
  · intro h; exact BitVec.eq_of_toInt_eq (h.trans hb.symm)
  · rintro rfl; exact hb

end Cert.SegReward

end
-- ==== Proof.Result.lean ====
/-
  The one function of the seven argument arrays that both programs compute: segment `b` receives the sum, over the
  tokens whose segment id is the word `b`, of the token's value in folded form. The layered form of the token's
  value, which is how the reference spells it, is the same number whenever every float entry is finite.
-/
import proofs.«133156_g27273042329868_cont_9to1_1261_2_alg».proof.Proof.Spec
import Idealize.ShloMosaic.Lib.ValueIdx

noncomputable section

namespace Cert.SegReward

open Idealize.ShloMosaic Idealize.ShloMosaic.ValueIdx

/-- The arrays' shapes, spelt out: tokens by features, the two layers and the head. -/
abbrev Tokens : Shape := ⟨2, ![16384, 128]⟩
abbrev Ids : Shape := ⟨1, ![16384]⟩
abbrev Layer1 : Shape := ⟨2, ![128, 512]⟩
abbrev Bias1 : Shape := ⟨1, ![512]⟩
abbrev Layer2 : Shape := ⟨2, ![512, 256]⟩
abbrev Bias2 : Shape := ⟨1, ![256]⟩
abbrev Head : Shape := ⟨2, ![256, 1]⟩
abbrev Segments : Shape := ⟨1, ![16]⟩

variable (x : Tokens.Idx → EReal) (W1 : Layer1.Idx → EReal) (b1 : Bias1.Idx → EReal)
  (W2 : Layer2.Idx → EReal) (b2 : Bias2.Idx → EReal) (w : Head.Idx → EReal)

/-- Token `t`'s hidden row. -/
def hiddenRow (t : Fin 16384) (j : Fin 512) : EReal :=
  hidden (fun a : Fin 128 => x (ix2 t a)) (fun a => W1 (ix2 a j)) (b1 (ix1 j))

/-- Token `t`'s value, folded form. -/
def tokenFolded (t : Fin 16384) : EReal :=
  folded (hiddenRow x W1 b1 t) (fun j k => W2 (ix2 j k)) (fun k : Fin 256 => b2 (ix1 k)) (fun k => w (ix2 k (0 : Fin 1)))

/-- Token `t`'s value, layered form. -/
def tokenLayered (t : Fin 16384) : EReal :=
  layered (hiddenRow x W1 b1 t) (fun j k => W2 (ix2 j k)) (fun k : Fin 256 => b2 (ix1 k)) (fun k => w (ix2 k (0 : Fin 1)))

/-- With every entry finite the layered form is the folded form. -/
theorem tokenLayered_eq_tokenFolded (hx : ∀ i, ∃ r : ℝ, x i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (hw : ∀ i, ∃ r : ℝ, w i = r) (t : Fin 16384) :
    tokenLayered x W1 b1 W2 b2 w t = tokenFolded x W1 b1 W2 b2 w t := by
  choose x' hx' using hx
  choose W1' hW1' using hW1
  choose b1' hb1' using hb1
  choose W2' hW2' using hW2
  choose b2' hb2' using hb2
  choose w' hw' using hw
  have hrow : hiddenRow x W1 b1 t
      = fun j => ((max ((∑ a : Fin 128, x' (ix2 t a) * W1' (ix2 a j)) + b1' (ix1 j)) 0 : ℝ) : EReal) :=
    funext fun j => by
      unfold hiddenRow
      simp only [hx', hW1', hb1']
      exact hidden_coe _ _ _
  unfold tokenLayered tokenFolded
  rw [hrow]
  simp only [hW2', hb2', hw']
  exact layered_eq_folded _ _ _ _

/-- The result: per segment, the sum of the folded values of the tokens carrying that segment's id. -/
def result (seg : Ids.Idx → BitVec 32) : Segments.Idx → EReal :=
  fun i => segSum (fun t => seg (ix1 t)) (tokenFolded x W1 b1 W2 b2 w) (i 0)

end Cert.SegReward

end
-- ==== Proof.KernelValue.lean ====
/-
  What the kernel's output holds, point by point and at the end.

  At every grid point the body adds, per segment, the values of that block's tokens carrying the segment's id to
  what the output block held; the first point starts from zero. So after point `n` the block holds, per segment,
  the sum over the blocks `0 … n` of those per-block sums, and after the last point the sum over all sixteen
  blocks, which is the sum over all tokens. The block is written back once, after the last point, and the host
  then only drops its leading unit axis.
-/
import proofs.«133156_g27273042329868_cont_9to1_1261_2_alg».proof.Proof.Gen.KernelIdeal.Frame
import proofs.«133156_g27273042329868_cont_9to1_1261_2_alg».proof.Proof.KernelBody
import proofs.«133156_g27273042329868_cont_9to1_1261_2_alg».proof.Proof.Result
import Idealize.ShloMosaic.Lib.Pipeline.Value
import Idealize.ShloMosaic.Lib.StableHlo.Run
import Idealize.ShloMosaic.Lib.Tactic

set_option maxRecDepth 16384

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.SegReward

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each of the two cases leaves in the output block -/

section Cases
variable {F : FTy → Type} [FloatOps F]

/-- A point other than the first: the accumulate step over what the block held. -/
theorem out_later (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (hc0 : ¬cond0_0 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) (xo7 : Vec F S1x16 .f32) :
    out0_B_7 c i arg1 harg1 arg2 harg2 arg3 harg3 arg4 harg4 arg5 harg5 arg6 harg6 arg7 harg7 arg8 harg8 hc0 x0 x1 x2 x3 x4 x5 x6 xo7
      = k0_pay2 (k0_pay3 x1) (k0_pay4 x4 x6 x5 x6 x0 x2 x3) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 x6 xo7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S1024x128) hz2, View.ld_unit_zero (S := S1x1x1024) hz3, View.ld_unit_zero (S := S128x512) hz2, View.ld_unit_zero (S := S1x512) hz2, View.ld_unit_zero (S := S512x256) hz2, View.ld_unit_zero (S := S1x256) hz2, View.ld_unit_zero (S := S256x1) hz2, View.ld_unit_zero (S := S1x16) hz2]

/-- The first point: the accumulate step over the zero block the reset stored. -/
theorem out_first (c : Dev nD) (i : grid0.Coords) (arg1 : Memref sig .tc .vmem S1024x128 .f32) (harg1 : arg1.IsWhole) (arg2 : Memref sig .tc .vmem S1x1x1024 .i32) (harg2 : arg2.IsWhole) (arg3 : Memref sig .tc .vmem S128x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S256x1 .f32) (harg7 : arg7.IsWhole) (arg8 : Memref sig .tc .vmem S1x16 .f32) (harg8 : arg8.IsWhole) (hc0 : cond0_0 i)
    (x0 : Vec F S1024x128 .f32) (x1 : Vec F S1x1x1024 .i32) (x2 : Vec F S128x512 .f32) (x3 : Vec F S1x512 .f32) (x4 : Vec F S512x256 .f32) (x5 : Vec F S1x256 .f32) (x6 : Vec F S256x1 .f32) :
    out0_A_7 c i arg1 harg1 arg2 harg2 arg3 harg3 arg4 harg4 arg5 harg5 arg6 harg6 arg7 harg7 arg8 harg8 hc0 x0 x1 x2 x3 x4 x5 x6
      = k0_pay2 (k0_pay3 x1) (k0_pay4 x4 x6 x5 x6 x0 x2 x3) k0_pay1 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5 x6)]
  unfold kernelRun0_A
  dsimp only
  sl_unfold_words
  rw [View.canon_cons_unit_zero (S := S1x16) hz2]
  simp only [View.readCov_unit_zero (S := S1x16) _ hz2, View.readAt_eq_ld, harg1.read_unread, harg2.read_unread, harg3.read_unread, harg4.read_unread, harg5.read_unread, harg6.read_unread, harg7.read_unread, harg8.read_unread, View.ld_unit_zero (S := S1024x128) hz2, View.ld_unit_zero (S := S1x1x1024) hz3, View.ld_unit_zero (S := S128x512) hz2, View.ld_unit_zero (S := S1x512) hz2, View.ld_unit_zero (S := S512x256) hz2, View.ld_unit_zero (S := S1x256) hz2, View.ld_unit_zero (S := S256x1) hz2, View.ld_unit_zero (S := S1x16) hz2]

end Cases

/-! ## The windows' blocks read off the argument arrays -/

section Reads
variable (m : (ℓ : Loc nD τ sig) → Buf (Elt Ideal) ℓ) (ρ : Dev nD → PrngReg)

/-- The seven argument arrays on core `c`. -/
abbrev xA (c : Dev nD) : Tokens.Idx → EReal := m ((c : Thread nD τ).loc main_arg0)
abbrev segA (c : Dev nD) : Ids.Idx → BitVec 32 := m ((c : Thread nD τ).loc main_arg1)
abbrev W1A (c : Dev nD) : Layer1.Idx → EReal := m ((c : Thread nD τ).loc main_arg2)
abbrev b1A (c : Dev nD) : Bias1.Idx → EReal := m ((c : Thread nD τ).loc main_arg3)
abbrev W2A (c : Dev nD) : Layer2.Idx → EReal := m ((c : Thread nD τ).loc main_arg4)
abbrev b2A (c : Dev nD) : Bias2.Idx → EReal := m ((c : Thread nD τ).loc main_arg5)
abbrev wA (c : Dev nD) : Head.Idx → EReal := m ((c : Thread nD τ).loc main_arg6)

/-- The grid's points are the sixteen blocks of tokens. -/
abbrev blockNo (t : Fin cfg0.N) : Fin 16 := Fin.cast (show cfg0.N = 16 from N_0) t

/-- The printed index maps, decided over the grid: the token and id windows move with the point, the rest stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The three arrays the host reshapes before the region. -/
theorem V_ids (c : Dev nD) :
    (V m c main_v0 : S16x1x1024.Idx → BitVec 32) = shapeCast S16x1x1024 (segA m c) Gen.shapeCasts_S16384_S16x1x1024 := by
  show StableHlo.after hostOps0 (fun b => m (c, b)) (Proc.devRef .tc main_v0) = _
  after_results
  rfl
theorem V_bias1 (c : Dev nD) :
    (V m c main_v1 : S1x512.Idx → EReal) = shapeCast S1x512 (b1A m c) Gen.shapeCasts_S512_S1x512 := by
  show StableHlo.after hostOps0 (fun b => m (c, b)) (Proc.devRef .tc main_v1) = _
  after_results
  rfl
theorem V_bias2 (c : Dev nD) :
    (V m c main_v2 : S1x256.Idx → EReal) = shapeCast S1x256 (b2A m c) Gen.shapeCasts_S256_S1x256 := by
  show StableHlo.after hostOps0 (fun b => m (c, b)) (Proc.devRef .tc main_v2) = _
  after_results
  rfl

/-- Row `r` of the token block at point `t` is token `1024 t + r`. -/
theorem tokens_read (c : Dev nD) (t : Fin cfg0.N) (r : Fin 1024) (a : Fin 128) :
    (iblk m c 0 t : Vec Ideal S1024x128 .f32) (ix2 r a) = xA m c (ix2 (tokenOf (blockNo t) r) a) := by
  obtain ⟨e0, e1, -⟩ := idx_facts t
  unfold iblk
  rw [View.read_apply]
  show V m c main_arg0 _ = _
  rw [V_main_arg0]
  show m ((c : Thread nD τ).loc main_arg0) _ = m ((c : Thread nD τ).loc main_arg0) _
  congr 1
  funext d
  apply Fin.ext
  match d with
  | ⟨0, _⟩ => show win0_0.index t (0 : Fin 2) * 1024 + 1 * r.val = 1024 * t.val + r.val; rw [e0]; omega
  | ⟨1, _⟩ => show win0_0.index t (1 : Fin 2) * 128 + 1 * a.val = a.val; rw [e1]; omega

/-- Position `r` of the id block at point `t` is the id of token `1024 t + r`. -/
theorem ids_read (c : Dev nD) (t : Fin cfg0.N) (r : Fin 1024) :
    (iblk m c 1 t : Vec Ideal S1x1x1024 .i32) (ix3 (0 : Fin 1) (0 : Fin 1) r) = segA m c (ix1 (tokenOf (blockNo t) r)) := by
  obtain ⟨-, -, e0, e1, e2, -⟩ := idx_facts t
  have hN : t.val < 16 := lt_of_lt_of_eq t.isLt (show cfg0.N = 16 from N_0)
  unfold iblk
  rw [View.read_apply]
  show V m c main_v0 _ = _
  rw [V_ids]
  refine shapeCast_apply _ _ _ (ix1 (tokenOf (blockNo t) r)) ?_
  rw [Shape.rowMajor_val_three, Shape.rowMajor_val_one]
  show 1024 * t.val + r.val
    = ((win0_1.index t (0 : Fin 3) * 1 + 1 * 0) * 1 + (win0_1.index t (1 : Fin 3) * 1 + 1 * 0)) * 1024
      + (win0_1.index t (2 : Fin 3) * 1024 + 1 * r.val)
  rw [e0, e1, e2]; omega

/-- The first layer's matrix, whole at every point. -/
theorem layer1_read (c : Dev nD) (t : Fin cfg0.N) (a : Fin 128) (j : Fin 512) :
    (iblk m c 2 t : Vec Ideal S128x512 .f32) (ix2 a j) = W1A m c (ix2 a j) := by
  obtain ⟨-, -, -, -, -, e0, e1, -⟩ := idx_facts t
  unfold iblk
  rw [View.read_apply]
  show V m c main_arg2 _ = _
  rw [V_main_arg2]
  show m ((c : Thread nD τ).loc main_arg2) _ = m ((c : Thread nD τ).loc main_arg2) _
  congr 1
  funext d
  apply Fin.ext
  match d with
  | ⟨0, _⟩ => show win0_2.index t (0 : Fin 2) * 128 + 1 * a.val = a.val; rw [e0]; omega
  | ⟨1, _⟩ => show win0_2.index t (1 : Fin 2) * 512 + 1 * j.val = j.val; rw [e1]; omega

/-- The first layer's bias, a one-row block of the reshaped array. -/
theorem bias1_read (c : Dev nD) (t : Fin cfg0.N) (j : Fin 512) :
    (iblk m c 3 t : Vec Ideal S1x512 .f32) (ix2 (0 : Fin 1) j) = b1A m c (ix1 j) := by
  obtain ⟨-, -, -, -, -, -, -, e0, e1, -⟩ := idx_facts t
  unfold iblk
  rw [View.read_apply]
  show V m c main_v1 _ = _
  rw [V_bias1]
  refine shapeCast_apply _ _ _ (ix1 j) ?_
  rw [Shape.rowMajor_val_two, Shape.rowMajor_val_one]
  show j.val = (win0_3.index t (0 : Fin 2) * 1 + 1 * 0) * 512 + (win0_3.index t (1 : Fin 2) * 512 + 1 * j.val)
  rw [e0, e1]; omega

/-- The second layer's matrix, whole at every point. -/
theorem layer2_read (c : Dev nD) (t : Fin cfg0.N) (j : Fin 512) (k : Fin 256) :
    (iblk m c 4 t : Vec Ideal S512x256 .f32) (ix2 j k) = W2A m c (ix2 j k) := by
  obtain ⟨-, -, -, -, -, -, -, -, -, e0, e1, -⟩ := idx_facts t
  unfold iblk
  rw [View.read_apply]
  show V m c main_arg4 _ = _
  rw [V_main_arg4]
  show m ((c : Thread nD τ).loc main_arg4) _ = m ((c : Thread nD τ).loc main_arg4) _
  congr 1
  funext d
  apply Fin.ext
  match d with
  | ⟨0, _⟩ => show win0_4.index t (0 : Fin 2) * 512 + 1 * j.val = j.val; rw [e0]; omega
  | ⟨1, _⟩ => show win0_4.index t (1 : Fin 2) * 256 + 1 * k.val = k.val; rw [e1]; omega

/-- The second layer's bias, a one-row block of the reshaped array. -/
theorem bias2_read (c : Dev nD) (t : Fin cfg0.N) (k : Fin 256) :
    (iblk m c 5 t : Vec Ideal S1x256 .f32) (ix2 (0 : Fin 1) k) = b2A m c (ix1 k) := by
  obtain ⟨-, -, -, -, -, -, -, -, -, -, -, e0, e1, -⟩ := idx_facts t
  unfold iblk
  rw [View.read_apply]
  show V m c main_v2 _ = _
  rw [V_bias2]
  refine shapeCast_apply _ _ _ (ix1 k) ?_
  rw [Shape.rowMajor_val_two, Shape.rowMajor_val_one]
  show k.val = (win0_5.index t (0 : Fin 2) * 1 + 1 * 0) * 256 + (win0_5.index t (1 : Fin 2) * 256 + 1 * k.val)
  rw [e0, e1]; omega

/-- The head's column, whole at every point. -/
theorem head_read (c : Dev nD) (t : Fin cfg0.N) (k : Fin 256) :
    (iblk m c 6 t : Vec Ideal S256x1 .f32) (ix2 k (0 : Fin 1)) = wA m c (ix2 k (0 : Fin 1)) := by
  obtain ⟨-, -, -, -, -, -, -, -, -, -, -, -, -, e0, e1⟩ := idx_facts t
  unfold iblk
  rw [View.read_apply]
  show V m c main_arg6 _ = _
  rw [V_main_arg6]
  show m ((c : Thread nD τ).loc main_arg6) _ = m ((c : Thread nD τ).loc main_arg6) _
  congr 1
  funext d
  apply Fin.ext
  match d with
  | ⟨0, _⟩ => show win0_6.index t (0 : Fin 2) * 256 + 1 * k.val = k.val; rw [e0]; omega
  | ⟨1, _⟩ => show win0_6.index t (1 : Fin 2) * 1 + 1 * 0 = 0; rw [e1]

/-! ## What one point adds, and what the block holds after each point -/

/-- What point `t` adds for segment `b`, over the blocks the body loads there. -/
def added (c : Dev nD) (t : Fin cfg0.N) (b : Fin 16) : EReal :=
  ∑ r : Fin 1024, Scalar.select (k0_pay3 (F := Ideal) (iblk m c 1 t) (ix2 r b))
    (k0_pay4 (F := Ideal) (iblk m c 4 t) (iblk m c 6 t) (iblk m c 5 t) (iblk m c 6 t) (iblk m c 0 t) (iblk m c 2 t)
      (iblk m c 3 t) (ix2 r (0 : Fin 1))) 0

/-- It is the sum, over the tokens of block `t` carrying the id `b`, of their folded values. -/
theorem added_eq (c : Dev nD) (t : Fin cfg0.N) (b : Fin 16) :
    added m c t b = ∑ r : Fin 1024,
      if segA m c (ix1 (tokenOf (blockNo t) r)) = BitVec.ofNat 32 b.val
        then tokenFolded (xA m c) (W1A m c) (b1A m c) (W2A m c) (b2A m c) (wA m c) (tokenOf (blockNo t) r) else 0 := by
  unfold added
  refine Finset.sum_congr rfl fun r _ => ?_
  rw [mask_apply, select_cmpi_eq, token_apply, ids_read]
  unfold tokenFolded folded hiddenRow Cert.SegReward.hidden
  simp only [tokens_read, layer1_read, bias1_read, layer2_read, bias2_read, head_read]

/-- After point `n` the block holds, per segment, what the points `0 … n` added. -/
theorem outs_eq (c : Dev nD) : ∀ (n : ℕ) (h : n < cfg0.N) (b : Fin 16),
    outsAt0 m c n h (ix2 (0 : Fin 1) b)
      = ∑ i ∈ Finset.range (n + 1), if hi : i < cfg0.N then added m c ⟨i, hi⟩ b else 0
  | 0, h, b => by
    have e := (outsAt0_A m c ⟨0, h⟩ rfl).trans (out_first ..)
    rw [show outsAt0 m c 0 h = _ from e, accumulate_apply, reset_apply, zero_add, Finset.sum_range_one, dif_pos h]
    rfl
  | n + 1, h, b => by
    have hN : cfg0.N = 16 := N_0
    have hB : ¬(⟨n + 1, h⟩ : Fin cfg0.N).val % 16 = 0 := by dsimp only; omega
    rw [outsAt0_B m c ⟨n + 1, h⟩ hB, out_later, accumulate_apply, Finset.sum_range_succ, dif_pos h]
    refine congrArg₂ (· + ·) ?_ rfl
    exact outs_eq c n _ b

/-- After the last point: the common result. -/
theorem last_eq (c : Dev nD) (h : 15 < cfg0.N) (b : Fin 16) :
    outsAt0 m c 15 h (ix2 (0 : Fin 1) b)
      = result (xA m c) (W1A m c) (b1A m c) (W2A m c) (b2A m c) (wA m c) (segA m c) (ix1 b) := by
  rw [outs_eq]
  unfold result segSum
  rw [sum_tokens_eq_sum_blocks, Finset.sum_range]
  refine Finset.sum_congr rfl fun i _ => ?_
  have hi : i.val < cfg0.N := by rw [show cfg0.N = 16 from N_0]; exact i.isLt
  rw [dif_pos hi, added_eq]
  rfl

/-! ## The array after the run, and the result buffer -/

/-- The output array's contents after the run: the result along its second axis. -/
def finalBlock (c : Dev nD) : S1x16.Idx → EReal := fun y =>
  result (xA m c) (W1A m c) (b1A m c) (W2A m c) (b2A m c) (wA m c) (segA m c) (ix1 (y 1))

/-- The one write-back, after the last point, writes it: the block is the whole array. -/
theorem flushed_eq (c : Dev nD) (t : Fin cfg0.N) (hf : (cfg0.win 7).flush t = true) :
    (dats m 0 c).flushed 7 t = ((cfg0.win 7).blk t).view.read (Elt Ideal) (finalBlock m c) := by
  have hN : cfg0.N = 16 := N_0
  have h15 : t.val = 15 := by have := (flush0_7 t).mp hf; have := t.isLt; omega
  obtain rfl : t = t0_15 := Fin.ext h15
  show (cfg0.win 7).cut (grid0.coords t0_15) ((dats m 0 c).after 7 t0_15) = _
  rw [after0_7]
  have hz' : (fun a => win0_7.index t0_15 a * main_v3.ty.shape.size a) = fun _ => 0 := funext fun a => by fin_cases a <;> decide
  refine Eq.trans ?_ (Memref.read_access_unit_zero (Elt Ideal) main_v3 hz' (fun a => by rw [congrFun hz' a]; simp) (finalBlock m c)).symm
  funext y
  obtain ⟨u, b, rfl⟩ : ∃ (u : Fin 1) (b : Fin 16), y = ix2 u b := ⟨y 0, y 1, eq_ix2 y⟩
  obtain rfl : u = 0 := Subsingleton.elim _ _
  exact last_eq m c _ b

/-- So the output array ends holding it. -/
theorem final_eq (c : Dev nD) : (dats m 0 c).arrAt 7 cfg0.N = finalBlock m c :=
  (dats m 0 c).arrAt_eq_of_cover 7 (finalBlock m c) (flushed_eq m c) fun i =>
    ⟨t0_15, (flush0_7 t0_15).mpr rfl, by
      show i ∈ ((View.whole main_v3).slice (win0_7.rect t0_15)).set
      rw [View.set_slice_whole, Rect.mem_set_unit]
      intro a
      have h0 : (i 0 : Nat) < 1 := (i 0).isLt
      have h1 : (i 1 : Nat) < 16 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 1 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 16 from by decide +kernel]; omega⟩

/-- The host's last line drops the leading unit axis: the result buffer holds the result. -/
theorem tail_eq (c : Dev nD) :
    Pipeline.afterTail₀ cfgs (dats m) 0 (V0 m) [hostOps1] c main_v4
      = result (xA m c) (W1A m c) (b1A m c) (W2A m c) (b2A m c) (wA m c) (segA m c) := by
  unfold Pipeline.afterTail₀
  show StableHlo.after hostOps1 _ (Proc.devRef .tc main_v4) = _
  after_results
  funext i
  obtain ⟨b, rfl⟩ : ∃ b : Fin 16, i = ix1 b := ⟨i 0, eq_ix1 i⟩
  show shapeCast S16 (Pipeline.withArrays spec0 c (V0 m c) (fun w => (dats m 0 c).arrAt w cfg0.N) (Proc.devRef .tc main_v3))
    Gen.shapeCasts_S1x16_S16 (ix1 b) = _
  rw [shapeCast_1a_a_apply]
  have hw := (Pipeline.withArrays_arr spec0 launch0.win.arr_inj c (V0 m c) (fun w => (dats m 0 c).arrAt w cfg0.N) 7).trans (final_eq m c)
  exact congrFun hw (ix2 (0 : Fin 1) b)

/-- The kernel's run, read: the result buffer at the common result, the arguments unchanged. -/
theorem run : θ_run defs (onTc (τ := τ) (main (F := Ideal))) ⟨m, fun _ => 0, ρ⟩ fun r => ∀ c : Dev nD,
      r.2.mem ((c.tc : Thread nD τ).loc main_v4) = result (xA m c) (W1A m c) (b1A m c) (W2A m c) (b2A m c) (wA m c) (segA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (run_main m ρ)
  exact ⟨((h c).2 main_v4 (Pipeline.mem_restRefs_of main_v4 (by decide) (by decide))).trans (tail_eq m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).1 4).trans (((dats m 0 c).arrAt_in 4 rfl _).trans ((A_eq m c 4).trans (V_main_arg4 m c))),
    ((h c).2 main_arg5 (Pipeline.mem_restRefs_of main_arg5 (by decide) (by decide))).trans (W_main_arg5 m (dats m) c),
    ((h c).1 6).trans (((dats m 0 c).arrAt_in 6 rfl _).trans ((A_eq m c 6).trans (V_main_arg6 m c)))⟩

end Reads

end Cert.KernelIdeal.Accum

end
-- ==== Proof.RefValue.lean ====
/-
  The reference read as a function of its arguments, index by index: a per-token value in layered form, then, per
  segment, the sum of the tokens whose id — read as a signed number, never clamped — is that segment's number; a
  token whose id is outside `0 … 15` lands nowhere and is dropped.
-/
import proofs.«133156_g27273042329868_cont_9to1_1261_2_alg».proof.Proof.Gen.ReferenceIdeal.Run
import proofs.«133156_g27273042329868_cont_9to1_1261_2_alg».proof.Proof.Gen.ReferenceIdeal.Read
import proofs.«133156_g27273042329868_cont_9to1_1261_2_alg».proof.Proof.Result

noncomputable section

namespace Cert.ReferenceIdeal.SegValue

open Idealize.ShloMosaic Idealize.ShloMosaic.ValueIdx Cert.ReferenceIdeal Cert.ReferenceIdeal.Gen Cert.SegReward

/-! ## Where an update lands -/

/-- The update of token `t` starts, on the one operand axis, at the token's id read signed. -/
theorem start_eq (idx : IVec S16384x1 32) (t : Fin 16384) (a : Fin S16.rank) :
    scatter_S16_S16384x1_S16384_n_0_0_1.start (ix1 t) idx a = (idx (ix2 t (0 : Fin 1))).toInt := by
  obtain rfl : a = 0 := Subsingleton.elim _ _
  unfold ScatterDims.start
  rw [dif_pos (show (0 : Fin S16.rank) ∈ scatter_S16_S16384x1_S16384_n_0_0_1.scatterDimsToOperandDims by decide)]
  refine congrArg (fun j => (idx j).toInt) (funext fun b => Fin.ext ?_)
  match b with
  | ⟨0, _⟩ => rfl
  | ⟨1, _⟩ => rfl

/-- There is no window coordinate: the one operand axis is an inserted one. -/
theorem window_eq (t : Fin 16384) (a : Fin S16.rank) : scatter_S16_S16384x1_S16384_n_0_0_1.window (ix1 t) a = 0 := by
  obtain rfl : a = 0 := Subsingleton.elim _ _
  unfold ScatterDims.window
  exact dif_neg (by decide)

/-- Token `t`'s update lands on segment `b` exactly when its id, read signed, is `b`. -/
theorem lands_iff (idx : IVec S16384x1 32) (t : Fin 16384) (b : Fin 16) :
    scatter_S16_S16384x1_S16384_n_0_0_1.resultIdx? (ix1 t) idx = some (ix1 b) ↔ (idx (ix2 t (0 : Fin 1))).toInt = (b.val : Int) := by
  unfold ScatterDims.resultIdx?
  constructor
  · intro h
    split at h
    · rename_i hall
      have h0 := congrArg (fun f : S16.Idx => (f 0).val) (Option.some.inj h)
      have hb := hall 0
      rw [start_eq, window_eq] at hb
      have hb' : (0 : Int) ≤ (idx (ix2 t (0 : Fin 1))).toInt + ((0 : Nat) : Int)
          ∧ (idx (ix2 t (0 : Fin 1))).toInt + ((0 : Nat) : Int) < ((16 : Nat) : Int) := hb
      simp only [start_eq, window_eq] at h0
      have h0' : ((idx (ix2 t (0 : Fin 1))).toInt + ((0 : Nat) : Int)).toNat = b.val := h0
      omega
    · cases h
  · intro h
    have hall : ∀ a, 0 ≤ scatter_S16_S16384x1_S16384_n_0_0_1.start (ix1 t) idx a + scatter_S16_S16384x1_S16384_n_0_0_1.window (ix1 t) a
        ∧ scatter_S16_S16384x1_S16384_n_0_0_1.start (ix1 t) idx a + scatter_S16_S16384x1_S16384_n_0_0_1.window (ix1 t) a < S16.size a := by
      intro a
      obtain rfl : a = 0 := Subsingleton.elim _ _
      rw [start_eq, window_eq, h]
      have := b.isLt
      show (0 : Int) ≤ (b.val : Int) + ((0 : Nat) : Int) ∧ (b.val : Int) + ((0 : Nat) : Int) < ((16 : Nat) : Int)
      omega
    rw [dif_pos hall]
    refine congrArg some (funext fun a => Fin.ext ?_)
    obtain rfl : a = 0 := Subsingleton.elim _ _
    show (scatter_S16_S16384x1_S16384_n_0_0_1.start (ix1 t) idx 0 + scatter_S16_S16384x1_S16384_n_0_0_1.window (ix1 t) 0).toNat = b.val
    rw [start_eq, window_eq, h]
    omega

/-! ## The per-token value -/

theorem idx10 (t : Fin 16384) : Read.idx_main_v10 (ix1 t) = ix2 t (0 : Fin 1) :=
  funext fun a => Fin.ext (by
    match a with
    | ⟨0, _⟩ => show t.val / 1 = t.val; exact Nat.div_one _
    | ⟨1, _⟩ => rfl)
theorem lidx9 (t : Fin 16384) (u : Fin 1) (k : Fin 256) : Read.lidx_main_v9 (ix2 t u) k = ix2 t k :=
  funext fun a => Fin.ext (by match a with | ⟨0, _⟩ => rfl | ⟨1, _⟩ => rfl)
theorem ridx9 (t : Fin 16384) (k : Fin 256) : Read.ridx_main_v9 (ix2 t (0 : Fin 1)) k = ix2 k (0 : Fin 1) :=
  funext fun a => Fin.ext (by match a with | ⟨0, _⟩ => rfl | ⟨1, _⟩ => rfl)
theorem lidx5 (t : Fin 16384) (k : Fin 256) (j : Fin 512) : Read.lidx_main_v5 (ix2 t k) j = ix2 t j :=
  funext fun a => Fin.ext (by match a with | ⟨0, _⟩ => rfl | ⟨1, _⟩ => rfl)
theorem ridx5 (t : Fin 16384) (k : Fin 256) (j : Fin 512) : Read.ridx_main_v5 (ix2 t k) j = ix2 j k :=
  funext fun a => Fin.ext (by match a with | ⟨0, _⟩ => rfl | ⟨1, _⟩ => rfl)
theorem lidx0 (t : Fin 16384) (j : Fin 512) (a : Fin 128) : Read.lidx_main_v0 (ix2 t j) a = ix2 t a :=
  funext fun c => Fin.ext (by match c with | ⟨0, _⟩ => rfl | ⟨1, _⟩ => rfl)
theorem ridx0 (t : Fin 16384) (j : Fin 512) (a : Fin 128) : Read.ridx_main_v0 (ix2 t j) a = ix2 a j :=
  funext fun c => Fin.ext (by match c with | ⟨0, _⟩ => rfl | ⟨1, _⟩ => rfl)
theorem idx12 (t : Fin 16384) (j : Fin 512) : Read.idx_main_v1 (Read.idx_main_v2 (ix2 t j)) = ix1 j :=
  funext fun c => Fin.ext (by match c with | ⟨0, _⟩ => rfl)
theorem idx67 (t : Fin 16384) (k : Fin 256) : Read.idx_main_v6 (Read.idx_main_v7 (ix2 t k)) = ix1 k :=
  funext fun c => Fin.ext (by match c with | ⟨0, _⟩ => rfl)
theorem idx12' (t : Fin 16384) : Read.idx_main_v12 (ix2 t (0 : Fin 1)) = ix1 t :=
  funext fun c => Fin.ext (by match c with | ⟨0, _⟩ => rfl)

variable (x : (⟨S16384x128, .f32⟩ : BufTy).Contents (Elt Ideal)) (seg : (⟨S16384, .i32⟩ : BufTy).Contents (Elt Ideal))
  (W1 : (⟨S128x512, .f32⟩ : BufTy).Contents (Elt Ideal)) (b1 : (⟨S512, .f32⟩ : BufTy).Contents (Elt Ideal))
  (W2 : (⟨S512x256, .f32⟩ : BufTy).Contents (Elt Ideal)) (b2 : (⟨S256, .f32⟩ : BufTy).Contents (Elt Ideal))
  (w : (⟨S256x1, .f32⟩ : BufTy).Contents (Elt Ideal))

/-- The hidden row as the reference forms it. -/
theorem hidden_ref (t : Fin 16384) (j : Fin 512) :
    Read.val_main_v4 (F := Ideal) x W1 b1 (ix2 t j) = hiddenRow x W1 b1 t j := by
  rw [Read.val_main_v4_apply, Read.val_main_v3_apply, Read.val_main_v0_apply, Read.val_main_v2_apply,
    Read.val_main_v1_apply, idx12, Read.val_main_call0_v0_apply, Read.val_main_call0_cst_apply]
  unfold hiddenRow Cert.SegReward.hidden
  simp only [lidx0, ridx0, Ideal.addf_def, Ideal.maximumf_def, Ideal.ofBits_def, Ideal.ofBits_zero_f32]

/-- The value the reference scatters for token `t`: the layered form. -/
theorem token_ref (t : Fin 16384) :
    Read.val_main_v10 (F := Ideal) x W1 b1 W2 b2 w (ix1 t) = tokenLayered x W1 b1 W2 b2 w t := by
  rw [Read.val_main_v10_apply, idx10, Read.val_main_v9_apply]
  unfold tokenLayered layered
  refine Finset.sum_congr rfl fun k _ => ?_
  rw [lidx9, ridx9, Read.val_main_v8_apply, Read.val_main_v5_apply, Read.val_main_v7_apply, Read.val_main_v6_apply, idx67]
  simp only [lidx5, ridx5, hidden_ref, Ideal.addf_def]

/-! ## The result -/

/-- The one-axis indices of the tokens, as the tokens' numbers. -/
def tokenIdx : S16384.Idx ≃ Fin 16384 where
  toFun j := j 0
  invFun t := ix1 t
  left_inv j := (eq_ix1 j).symm
  right_inv _ := rfl

/-- The reference's result is the common result, given that every float entry is finite. -/
theorem result_ref (hx : ∀ i, ∃ r : ℝ, x i = r) (hW1 : ∀ i, ∃ r : ℝ, W1 i = r) (hb1 : ∀ i, ∃ r : ℝ, b1 i = r)
    (hW2 : ∀ i, ∃ r : ℝ, W2 i = r) (hb2 : ∀ i, ∃ r : ℝ, b2 i = r) (hw : ∀ i, ∃ r : ℝ, w i = r) :
    Read.val_main_v13 (F := Ideal) x seg W1 b1 W2 b2 w = result x W1 b1 W2 b2 w seg := by
  funext i
  obtain ⟨b, rfl⟩ : ∃ b : Fin 16, i = ix1 b := ⟨i 0, eq_ix1 i⟩
  unfold Read.val_main_v13
  simp only [Host.scatterAdd]
  rw [Ideal.hostScatterAdd_def]
  unfold Ideal.hostScatterAdd
  rw [Read.val_main_v11_apply, Read.val_main_cst_apply, Ideal.ofBits_def, Ideal.ofBits_zero_f32, zero_add,
    Finset.sum_filter]
  unfold result segSum
  refine (Fintype.sum_equiv tokenIdx _ _ fun j => ?_)
  obtain ⟨t, rfl⟩ : ∃ t : Fin 16384, j = ix1 t := ⟨j 0, eq_ix1 j⟩
  show _ = if seg (ix1 t) = BitVec.ofNat 32 b.val then tokenFolded x W1 b1 W2 b2 w t else 0
  have hp : (scatter_S16_S16384x1_S16384_n_0_0_1.resultIdx? (ix1 t) (Read.val_main_v12 (F := Ideal) seg) = some (ix1 b))
      ↔ seg (ix1 t) = BitVec.ofNat 32 b.val := by
    rw [lands_iff, Read.val_main_v12_apply, idx12']
    exact toInt_eq_iff _ b
  rw [if_congr hp rfl rfl, token_ref, tokenLayered_eq_tokenFolded x W1 b1 W2 b2 w hx hW1 hb1 hW2 hb2 hw]

end Cert.ReferenceIdeal.SegValue

end
-- ==== Proof.Finite.lean ====
/-
  The precondition read back: it is the conjunction, over the six float arguments, of "every entry's absolute value
  is below the word of +∞", so under it every float entry is a real number.
-/
import proofs.«133156_g27273042329868_cont_9to1_1261_2_alg».proof.Pre_finite_inputs
import proofs.«133156_g27273042329868_cont_9to1_1261_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Idealize.ShloMosaic Idealize.ShloMosaic.ValueIdx Cert.Pre_finite_inputs

instance : Subsingleton S_.Idx := ⟨fun a b => funext fun d => d.elim0⟩

/-- The word `0x7F800000` is +∞. -/
theorem ofBits_inf : Ideal.ofBits .f32 0x7F800000#32 = ⊤ := by
  simp [Ideal.ofBits, Ideal.ieee]

/-- An extended real whose absolute value compares below +∞ is a real number. -/
theorem real_of_abs_lt_top (a : EReal) (h : Ideal.cmp .olt (max a (-a)) ⊤ = 1#1) : ∃ r : ℝ, a = r := by
  unfold Ideal.cmp at h
  induction a using EReal.rec with
  | bot => simp at h
  | top => simp at h
  | coe r => exact ⟨r, rfl⟩

/-- One argument's test, at one entry. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = r := by
  apply real_of_abs_lt_top
  have hinf : broadcastInDim s ![] hb (constant (F := Ideal) S_ .f32 0x7F800000#32) i = ⊤ := by
    rw [broadcastInDim_apply _ hb _ i ix0 (fun a => a.elim0)]
    exact ofBits_inf
  have h' : FloatOps.cmpf (F := Ideal) .olt (Host.absf x i) (broadcastInDim s ![] hb (constant (F := Ideal) S_ .f32 0x7F800000#32) i) = 1#1 := h
  rw [hinf] at h'
  exact h'

/-- Under the precondition every entry of every float argument is a real number. -/
theorem reals_of_pre (x : FVec Ideal S16384x128 .f32) (seg : IVec S16384 32) (W1 : FVec Ideal S128x512 .f32)
    (b1 : FVec Ideal S512 .f32) (W2 : FVec Ideal S512x256 .f32) (b2 : FVec Ideal S256 .f32) (w : FVec Ideal S256x1 .f32)
    (h : fn (F := Ideal) x seg W1 b1 W2 b2 w = fun _ => 1#1) :
    (∀ i, ∃ r : ℝ, x i = r) ∧ (∀ i, ∃ r : ℝ, W1 i = r) ∧ (∀ i, ∃ r : ℝ, b1 i = r)
      ∧ (∀ i, ∃ r : ℝ, W2 i = r) ∧ (∀ i, ∃ r : ℝ, b2 i = r) ∧ (∀ i, ∃ r : ℝ, w i = r) := by
  have h0 := congrFun h ix0
  unfold fn fn_part1 at h0
  dsimp only at h0
  obtain ⟨h1, ew⟩ := IntOp.andi_eq_one.1 h0
  obtain ⟨h2, eb2⟩ := IntOp.andi_eq_one.1 h1
  obtain ⟨h3, eW2⟩ := IntOp.andi_eq_one.1 h2
  obtain ⟨h4, eb1⟩ := IntOp.andi_eq_one.1 h3
  obtain ⟨ex, eW1⟩ := IntOp.andi_eq_one.1 h4
  exact ⟨fun i => entry_real x _ i (Host.reduce_andi_all _ _ _ _ _ ex i),
    fun i => entry_real W1 _ i (Host.reduce_andi_all _ _ _ _ _ eW1 i),
    fun i => entry_real b1 _ i (Host.reduce_andi_all _ _ _ _ _ eb1 i),
    fun i => entry_real W2 _ i (Host.reduce_andi_all _ _ _ _ _ eW2 i),
    fun i => entry_real b2 _ i (Host.reduce_andi_all _ _ _ _ _ eb2 i),
    fun i => entry_real w _ i (Host.reduce_andi_all _ _ _ _ _ ew i)⟩

end Cert.Pre_finite_inputs.Finite

end
-- ==== Proof.lean ====
/-
  A per-token two-layer network with a linear head, summed per segment.

  For every token the kernel forms the hidden row `h = max (x · W1 + b1) 0` and reduces it against the head carried
  through the second layer, `h · (W2 · w) + b2 · w`; the reference goes through the second layer first,
  `(h · W2 + b2) · w`. Over finite entries the two are one number (the head's weight distributes over the inner sum and
  the two sums exchange), and finiteness of every float entry is what the precondition states. Each then adds a token's
  value to the segment its id names: the kernel by comparing the id with the sixteen segment numbers, block of 1024
  tokens by block, accumulating into one output block that the first grid point resets; the reference by a scatter
  whose start index is the id read signed and not clamped, so that an id outside `0 … 15` lands nowhere. Either way an
  id outside the range contributes to no segment, and segment `b` receives the sum of the values of the tokens whose
  id is `b`: the sixteen block sums are the one sum over all tokens regrouped.
  Nothing was rewritten by the idealization, so its preservation claim is the trivial one.
-/
import proofs.«133156_g27273042329868_cont_9to1_1261_2_alg».proof.Defs
import proofs.«133156_g27273042329868_cont_9to1_1261_2_alg».proof.Proof.Gen.Kernel
import proofs.«133156_g27273042329868_cont_9to1_1261_2_alg».proof.Proof.Gen.Kernel.Frame
import proofs.«133156_g27273042329868_cont_9to1_1261_2_alg».proof.Proof.Gen.KernelIdeal
import proofs.«133156_g27273042329868_cont_9to1_1261_2_alg».proof.Proof.Gen.KernelIdeal.Frame
import proofs.«133156_g27273042329868_cont_9to1_1261_2_alg».proof.Proof.Gen.ReferenceIdeal
import proofs.«133156_g27273042329868_cont_9to1_1261_2_alg».proof.Proof.Gen.ReferenceIdeal.Run
import proofs.«133156_g27273042329868_cont_9to1_1261_2_alg».proof.Proof.Gen.Pre_finite_inputs
import proofs.«133156_g27273042329868_cont_9to1_1261_2_alg».proof.Proof.KernelValue
import proofs.«133156_g27273042329868_cont_9to1_1261_2_alg».proof.Proof.RefValue
import proofs.«133156_g27273042329868_cont_9to1_1261_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with, per segment, the sum of the folded values of the tokens carrying that segment's id. -/
theorem algebraic : Cert.algebraic_KernelIdeal_ReferenceIdeal := by
  intro m ρ m' ρ' hpre hagree
  refine ⟨fun c => Cert.SegReward.result (Cert.KernelIdeal.Accum.xA m c) (Cert.KernelIdeal.Accum.W1A m c) (Cert.KernelIdeal.Accum.b1A m c)
    (Cert.KernelIdeal.Accum.W2A m c) (Cert.KernelIdeal.Accum.b2A m c) (Cert.KernelIdeal.Accum.wA m c) (Cert.KernelIdeal.Accum.segA m c), Cert.KernelIdeal.Accum.run m ρ, ?_⟩
  refine (θ_run Cert.ReferenceIdeal.defs _ _).mono (fun _ h c => ⟨(h c).1.trans ?_, (h c).2⟩) (Cert.ReferenceIdeal.Value.run (F := Ideal) m' ρ')
  obtain ⟨hx, hW1, hb1, hW2, hb2, hw⟩ := Cert.Pre_finite_inputs.Finite.reals_of_pre _ _ _ _ _ _ _ (hpre c)
  rw [Cert.ReferenceIdeal.Read.val_main_v13_eq, (hagree c).1, (hagree c).2.1, (hagree c).2.2.1, (hagree c).2.2.2.1,
    (hagree c).2.2.2.2.1, (hagree c).2.2.2.2.2.1, (hagree c).2.2.2.2.2.2]
  exact Cert.ReferenceIdeal.SegValue.result_ref _ _ _ _ _ _ _ hx hW1 hb1 hW2 hb2 hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
